-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S4096x4096 .f32) (main_arg1 : FVec F S4096x256 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x4096 : Shape := ⟨2, ![4096, 4096]⟩
abbrev S4096x256 : Shape := ⟨2, ![4096, 256]⟩
abbrev S4x1024x4096 : Shape := ⟨3, ![4, 1024, 4096]⟩
abbrev S4x1024x256 : Shape := ⟨3, ![4, 1024, 256]⟩
abbrev S1x128x4096 : Shape := ⟨3, ![1, 128, 4096]⟩
abbrev S4x128x256 : Shape := ⟨3, ![4, 128, 256]⟩
abbrev S128x4096 : Shape := ⟨2, ![128, 4096]⟩
abbrev S128x256 : Shape := ⟨2, ![128, 256]⟩
abbrev S1x128x256 : Shape := ⟨3, ![1, 128, 256]⟩

abbrev nBuf : Space → Nat
  | .hbm => 5
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S4x1024x4096, .f32⟩
  | .hbm, ⟨3, _⟩ => ⟨S4x1024x256, .f32⟩
  | .hbm, ⟨4, _⟩ => ⟨S4096x256, .f32⟩
  | .local _ .vmem, ⟨0, _⟩ => ⟨S1x128x4096, .f32⟩
  | .local _ .vmem, ⟨1, _⟩ => ⟨S1x128x4096, .f32⟩
  | .local _ .vmem, ⟨2, _⟩ => ⟨S1x128x4096, .f32⟩
  | .local _ .vmem, ⟨3, _⟩ => ⟨S1x128x4096, .f32⟩
  | .local _ .vmem, ⟨4, _⟩ => ⟨S1x128x4096, .f32⟩
  | .local _ .vmem, ⟨5, _⟩ => ⟨S1x128x4096, .f32⟩
  | .local _ .vmem, ⟨6, _⟩ => ⟨S1x128x4096, .f32⟩
  | .local _ .vmem, ⟨7, _⟩ => ⟨S1x128x4096, .f32⟩
  | .local _ .vmem, ⟨8, _⟩ => ⟨S4096x256, .f32⟩
  | .local _ .vmem, ⟨9, _⟩ => ⟨S4x128x256, .f32⟩
  | .local _ .vmem, ⟨10, _⟩ => ⟨S4x128x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4096x4096_S4x1024x4096 : S4096x4096.ShapeCasts S4x1024x4096
  shapeCasts_S4x1024x256_S4096x256 : S4x1024x256.ShapeCasts S4096x256
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  inb_S4096x256_S4096x256_0_0 : ∀ a, (![0, 0] : Fin 2 → Nat) a + S4096x256.size a ≤ S4096x256.size a
  h_S4096x256 : 0 < S4096x256.numel
  inb_S4x128x256_S1x128x256_0_0_0 : ∀ a, (![0, 0, 0] : Fin 3 → Nat) a + S1x128x256.size a ≤ S4x128x256.size a
  h_S1x128x256 : 0 < S1x128x256.numel
  shapeCasts_S1x128x256_S128x256 : S1x128x256.ShapeCasts S128x256
  shapeCasts_S128x256_S1x128x256 : S128x256.ShapeCasts S1x128x256
  inb_S4x128x256_S1x128x256_1_0_0 : ∀ a, (![1, 0, 0] : Fin 3 → Nat) a + S1x128x256.size a ≤ S4x128x256.size a
  inb_S4x128x256_S1x128x256_2_0_0 : ∀ a, (![2, 0, 0] : Fin 3 → Nat) a + S1x128x256.size a ≤ S4x128x256.size a
  inb_S4x128x256_S1x128x256_3_0_0 : ∀ a, (![3, 0, 0] : Fin 3 → Nat) a + S1x128x256.size a ≤ S4x128x256.size a
  dot_S128x4096_S4096x256_S128x256_1_0_0_1_n_n_wf : DotDims.WF S128x4096 S4096x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S4x1024x4096.size a
  hwx0_0 : ∀ i : grid0.Coords, EltTy.bits .f32 = 32 ∨ (Rect.block (s := S4x1024x4096) S1x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4096.size a ≤ S4x1024x4096.size a
  hwx0_1 : ∀ i : grid0.Coords, EltTy.bits .f32 = 32 ∨ (Rect.block (s := S4x1024x4096) S1x128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4096.size a ≤ S4x1024x4096.size a
  hwx0_2 : ∀ i : grid0.Coords, EltTy.bits .f32 = 32 ∨ (Rect.block (s := S4x1024x4096) S1x128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x4096.size a ≤ S4x1024x4096.size a
  hwx0_3 : ∀ i : grid0.Coords, EltTy.bits .f32 = 32 ∨ (Rect.block (s := S4x1024x4096) S1x128x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x256.size a
  hwx0_4 : ∀ i : grid0.Coords, EltTy.bits .f32 = 32 ∨ (Rect.block (s := S4096x256) S4096x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x128x256.size a ≤ S4x1024x256.size a
  hwx0_5 : ∀ i : grid0.Coords, EltTy.bits .f32 = 32 ∨ (Rect.block (s := S4x1024x256) S4x128x256.size (cc0_transform_5 i) (hinb0_5 i)).WholeWords (EltTy.packing .f32)

variable [Facts₀]

def dot_S128x4096_S4096x256_S128x256_1_0_0_1_n_n : DotDims S128x4096 S4096x256 S128x256 where
  lhsContracting := [1]
  rhsContracting := [0]
  lhsNonContracting := [0]
  rhsNonContracting := [1]
  lhsBatch := []
  rhsBatch := []
  wf := dot_S128x4096_S4096x256_S128x256_1_0_0_1_n_n_wf

abbrev win0_0 : Pipeline.Window sig grid0 :=
  Pipeline.Window.ofSpec (Memref.whole main_call0_v0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S4096x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S4x128x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x256 : Shape := ⟨2, ![4096, 256]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S4096x256, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x4096_S4096x256_S4096x256_1_0_0_1_n_n_wf : DotDims.WF S4096x4096 S4096x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.BodyB.lean ====
/-
  The kernel body, run once on whole staging buffers.

  At a grid point the body reads four row bands of the adjacency (each a 1×128×4096 block of the
  reshaped array, one per stream) and the whole 4096×256 embedding table, multiplies each band by the
  table into a zero accumulator, and stores the four 128×256 products as the four slabs of its 4×128×256
  output block. Each slab is first loaded and the loaded value dropped; nothing of the block's previous
  contents survives, because the four stores tile the block. `outBlk` names the block the body leaves as
  a function of what it read; `sound_body_once` is the body's triple.
-/
import proofs.«166637_g29180007809569_cont_9to1_395_11_alg».proof.Proof.Gen.Kernel.Launch
import proofs.«166637_g29180007809569_cont_9to1_395_11_alg».proof.Proof.Gen.Kernel.Skeleton
import proofs.«166637_g29180007809569_cont_9to1_395_11_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- A whole band block. -/
abbrev rBand : Rect S1x128x4096 := Rect.unit (s := S1x128x4096) ![0, 0, 0] S1x128x4096.size inb_S1x128x4096_S1x128x4096_0_0_0
/-- The whole table. -/
abbrev rTab : Rect S4096x256 := Rect.unit (s := S4096x256) ![0, 0] S4096x256.size inb_S4096x256_S4096x256_0_0
/-- Slab `s` of the output block, `s = 0, 1, 2, 3`. -/
abbrev rSlab0 : Rect S4x128x256 := Rect.unit (s := S4x128x256) ![0, 0, 0] S1x128x256.size inb_S4x128x256_S1x128x256_0_0_0
abbrev rSlab1 : Rect S4x128x256 := Rect.unit (s := S4x128x256) ![1, 0, 0] S1x128x256.size inb_S4x128x256_S1x128x256_1_0_0
abbrev rSlab2 : Rect S4x128x256 := Rect.unit (s := S4x128x256) ![2, 0, 0] S1x128x256.size inb_S4x128x256_S1x128x256_2_0_0
abbrev rSlab3 : Rect S4x128x256 := Rect.unit (s := S4x128x256) ![3, 0, 0] S1x128x256.size inb_S4x128x256_S1x128x256_3_0_0

/-! ## What the body leaves in the output block -/

/-- The output block after the body, from the four bands and the table: its four stores as pieces, the last
    store first. -/
def outBlk (x0 x1 x2 x3 : Vec F S1x128x4096 .f32) (e : Vec F S4096x256 .f32) : Vec F S4x128x256 .f32 :=
  View.canon [⟨rSlab3, k0_pay1 (k0_pay5 (View.ld x3 rBand)) (View.ld e rTab)⟩,
    ⟨rSlab2, k0_pay4 (View.ld x2 rBand) (View.ld e rTab)⟩,
    ⟨rSlab1, k0_pay3 (View.ld x1 rBand) (View.ld e rTab)⟩,
    ⟨rSlab0, k0_pay2 (View.ld x0 rBand) (View.ld e rTab)⟩]

/-- The four slabs tile the block, so every index of the block lies in one of them. -/
theorem slabs_cover (p3 p2 p1 p0 : Vec F S1x128x256 .f32) (y : S4x128x256.Idx) :
    ∃ pc ∈ ([⟨rSlab3, p3⟩, ⟨rSlab2, p2⟩, ⟨rSlab1, p1⟩, ⟨rSlab0, p0⟩] : List (View.Piece (Elt F) S4x128x256 .f32)), y ∈ pc.1.set :=
  View.cover_of_tiled [⟨rSlab3, p3⟩, ⟨rSlab2, p2⟩, ⟨rSlab1, p1⟩, ⟨rSlab0, p0⟩] S1x128x256.size (by rfl) y

/-! ## The body's triple -/

set_option maxHeartbeats 4000000 in
/-- The body on whole staging memrefs — the four bands' at `x0 … x3`, the table's at `e`, the output's at
    anything — runs to the continuation holding the inputs' as they were and the output's at `outBlk`. -/
theorem sound_body_once (c : Dev nD) (E : Set ℕ) (i : grid0.Coords)
    (arg1 : Memref sig .tc .vmem S1x128x4096 .f32) (harg1 : arg1.IsWhole) (arg2 : Memref sig .tc .vmem S1x128x4096 .f32) (harg2 : arg2.IsWhole)
    (arg3 : Memref sig .tc .vmem S1x128x4096 .f32) (harg3 : arg3.IsWhole) (arg4 : Memref sig .tc .vmem S1x128x4096 .f32) (harg4 : arg4.IsWhole)
    (arg5 : Memref sig .tc .vmem S4096x256 .f32) (harg5 : arg5.IsWhole) (arg6 : Memref sig .tc .vmem S4x128x256 .f32) (harg6 : arg6.IsWhole)
    (x0 x1 x2 x3 : Vec F S1x128x4096 .f32) (e : Vec F S4096x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare e ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare e
            ∗ owns (c : Thread nD τ) arg6 fullShare (outBlk x0 x1 x2 x3 e)) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (slabs_cover _ _ _ _)

end Cert.Kernel.Hand

end
-- ==== Proof.DataB.lean ====
/-
  The pipeline's proof data and the body obligation.

  The region's arrays are the reshaped adjacency (read by four windows, one per stream), the embedding
  table (one window, fetched once) and the 4×1024×256 result (one window, written back at every point).
  At point `t` window `s < 4` holds rows `128 t … 128 t + 127` of band `s` of the reshaped adjacency,
  window 4 the whole table, and the body leaves in window 5 the block `outBlk` of those. The adjacency's
  array is held by four windows at once, so its full share is dealt among them in quarters.
-/
import proofs.«166637_g29180007809569_cont_9to1_395_11_alg».proof.Proof.BodyB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered -/

/-- Core `c`'s buffers at launch, as a valuation; -/
abbrev V₀ (c : Dev nD) : Valuation τ sig (Elt F) := fun b => m (c, b)
/-- and when the region is entered: the reshape of the adjacency has run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The share each window holds of its array: a quarter of the adjacency's for each of its four windows. -/
abbrev shares : Fin cfg0.W → PosShare TreeShare
  | ⟨0, _⟩ => fullShare.left.left
  | ⟨1, _⟩ => fullShare.left.right
  | ⟨2, _⟩ => fullShare.right.left
  | ⟨3, _⟩ => fullShare.right.right
  | _ => fullShare

/-- The proof data on core `c`: the arrays as the region finds them; after the body each input window at its
    block and the output window at `outBlk` of the input blocks; between points nothing but the scoped buffers
    no window stages; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.scopedRest spec0 c
  q := shares
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlk (iblk m c 0 t) (iblk m c 1 t) (iblk m c 2 t) (iblk m c 3 t) (iblk m c 4 t) := by dsimp only [dats]

/-! ## What each input window's buffer holds when the body runs

An input window's buffer holds its block at every point, fetched there or not: where it is not fetched
(the table after the first point) the block index has not moved and the body left the block in place. -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input windows' buffers hold their blocks, so the body's triple applies; what
    rides between points passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_body_once c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.RunB.lean ====
/-
  The run of @main: reshape, the kernel region, reshape.

  @main reshapes the 4096×4096 adjacency to 4×1024×4096, runs the one kernel region over it and the
  embedding table into a 4×1024×256 result, and reshapes that to 4096×256. It is run as three segments:
  the first reshape over the unscoped buffers; the region, entered with the reshaped adjacency dealt in
  quarters to its four windows, the table and the result each whole to its one window, and the two buffers
  no window stages set aside; the last reshape over the region's result and @main's result buffer alone.
  At the end @main's result holds the last reshape of the result array as the region's write-backs left it,
  and both arguments hold what they held at launch.
-/
import proofs.«166637_g29180007809569_cont_9to1_395_11_alg».proof.Proof.DataB
import Idealize.ShloMosaic.Lib.Pipeline.Regions
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's parameters: nothing owed, no level, no table -/

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

/-- What rides beside the buffers from segment to segment: the core owing nothing. -/
abbrev R (c : Dev nD) : sProp 𝕄 := iprop(∃ W, owes (c : Thread nD τ) (0 : CellTallies nD τ sig Unit) W)

/-! ## The first reshape -/

theorem hostOps0_fresh : ∀ op ∈ (hostOps0 : List (HloOp τ sig (Elt F))), op.fresh = ∅ := by
  intro _ h; (repeat (cases h with | head => rfl | tail _ h => ?_)); exact nomatch h

/-- The first reshape, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- The first reshape writes neither argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))

/-! ## The last reshape -/

/-- The two buffers the last reshape touches. -/
def tailRefs : Finset (DevRef τ sig) :=
  ({main_call0_v1, main_v0} : Finset (Ref sig .tc)).map ⟨Proc.devRef (sig := sig) .tc, Proc.devRef_injective _⟩

/-- The buffers as the region leaves them: the result array at what the write-backs made of it, every other
    buffer as the region found it. -/
def V₁ (c : Dev nD) : Valuation τ sig (Elt F) :=
  Function.update (StableHlo.after hostOps0 (V₀ m c)) (Proc.devRef .tc main_call0_v1) ((dats m 0 c).arrAt 5 cfg0.N)

theorem V₁_res (c : Dev nD) : V₁ m c (Proc.devRef .tc main_call0_v1) = (dats m 0 c).arrAt 5 cfg0.N := by
  unfold V₁; exact Function.update_self ..
theorem V₁_out (c : Dev nD) : V₁ m c (Proc.devRef .tc main_v0) = V m c main_v0 := by
  unfold V₁; exact Function.update_of_ne (StableHlo.devRef_ne_of_ne (by decide)) ..

theorem hostOps1_fresh : ∀ op ∈ (hostOps1 : List (HloOp τ sig (Elt F))), op.fresh = ∅ := by
  intro _ h; (repeat (cases h with | head => rfl | tail _ h => ?_)); exact nomatch h

theorem hostOps1_within : ∀ op ∈ (hostOps1 : List (HloOp τ sig (Elt F))), op.bufs ⊆ tailRefs := by
  intro op h
  simp only [hostOps1, List.mem_cons, List.mem_nil_iff, or_false] at h
  subst h
  intro b hb
  have hb' : b ∈ ({Proc.devRef .tc main_call0_v1, Proc.devRef .tc main_v0} : Finset (DevRef τ sig)) := hb
  simp only [Finset.mem_insert, Finset.mem_singleton] at hb'
  rcases hb' with rfl | rfl <;> exact Finset.mem_map_of_mem _ (by decide)

/-- What the last reshape does not touch and the end still reads: both arguments. -/
abbrev Kept (c : Dev nD) : sProp 𝕄 :=
  iprop((((c : Thread nD τ).loc main_arg0) ↦{fullShare} V m c main_arg0) ∗ (((c : Thread nD τ).loc main_arg1) ↦{fullShare} V m c main_arg1) ∗ R c)

/-- The last reshape, over the region's result and @main's result buffer. -/
def seg1 : Pipeline.HostSeg (Name := ℕ) (U := UR sig nD τ) (pcfgs (F := F)) defs₀ 𝒱₀ L lv :=
  Pipeline.HostSeg.ofOps _ _ _ _ _ tailRefs hostOps1 hostOps1_within hostOps1_fresh (V₁ m) (Kept m)

/-! ## The region -/

/-- The buffers behind the windows' arrays, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_call0_v0) ↦{fullShare} W main_call0_v0) ∗ (((c : Thread nD τ).loc main_arg1) ↦{fullShare} W main_arg1)
          ∗ (((c : Thread nD τ).loc main_call0_v1) ↦{fullShare} W main_call0_v1)) := by
  unfold Pipeline.arrBufs
  exact BI.bigSep_eq_bigSepL_of_eq [main_call0_v0, main_arg1, main_call0_v1] (by decide) (by decide) _

/-- The pipeline's arrays, window by window: the reshaped adjacency four times, a quarter share each; the table
    and the result whole. -/
theorem arrays_eq_chain (c : Dev nD) (Fn : (w : Fin cfg0.W) → Buf (Elt F) ((cfg0.win w).arr.view.loc (c : Thread nD τ))) :
    ((dats m 0 c).arrays Fn : sProp 𝕄)
      = iprop((((c : Thread nD τ).loc main_call0_v0) ↦{fullShare.left.left} Fn 0) ∗ (((c : Thread nD τ).loc main_call0_v0) ↦{fullShare.left.right} Fn 1)
          ∗ (((c : Thread nD τ).loc main_call0_v0) ↦{fullShare.right.left} Fn 2) ∗ (((c : Thread nD τ).loc main_call0_v0) ↦{fullShare.right.right} Fn 3)
          ∗ (((c : Thread nD τ).loc main_arg1) ↦{fullShare} Fn 4) ∗ (((c : Thread nD τ).loc main_call0_v1) ↦{fullShare} Fn 5)) := by
  unfold Dat.arrays
  rw [bigSep_W0, (arr_whole0 0).set_eq_univ, (arr_whole0 4).set_eq_univ, (arr_whole0 5).set_eq_univ]
  rfl

/-- The full share of a buffer dealt in quarters. -/
theorem quarters (ℓ : Loc nD τ sig) (f : Buf (Elt F) ℓ) :
    (ℓ ↦{fullShare} f : sProp 𝕄) ⊢ iprop((ℓ ↦{fullShare.left.left} f) ∗ (ℓ ↦{fullShare.left.right} f) ∗ (ℓ ↦{fullShare.right.left} f) ∗ (ℓ ↦{fullShare.right.right} f)) := by
  iintro H
  ihave Hs := (pointsTo_share (PosShare.mem_left_op_right fullShare)).1 $$ H
  icases Hs with ⟨Hl, Hr⟩
  ihave Hls := (pointsTo_share (PosShare.mem_left_op_right fullShare.left)).1 $$ Hl
  ihave Hrs := (pointsTo_share (PosShare.mem_left_op_right fullShare.right)).1 $$ Hr
  icases Hls with ⟨Ha, Hb⟩
  icases Hrs with ⟨Hc, Hd⟩
  isplitl [Ha]; · iexact Ha
  isplitl [Hb]; · iexact Hb
  isplitl [Hc]; · iexact Hc
  iexact Hd

/-- The two buffers of the last reshape, listed. -/
theorem held_tail (c : Dev nD) (W : Valuation τ sig (Elt F)) :
    (StableHlo.held (Ix := Unit) (Name := ℕ) (U := UR sig nD τ) (Lvl := ℕ) (c : Thread nD τ) tailRefs W : sProp 𝕄)
      = iprop((((c : Thread nD τ).loc main_call0_v1) ↦{fullShare} W main_call0_v1) ∗ (((c : Thread nD τ).loc main_v0) ↦{fullShare} W main_v0)) := by
  unfold StableHlo.held tailRefs
  rw [bigSep_map]
  exact BI.bigSep_eq_bigSepL_of_eq [main_call0_v1, main_v0] (by decide) (by decide) _

/-- What bypasses the region: the two buffers no window stages. -/
abbrev Bypass (c : Dev nD) : sProp 𝕄 :=
  iprop((((c : Thread nD τ).loc main_arg0) ↦{fullShare} V m c main_arg0) ∗ (((c : Thread nD τ).loc main_v0) ↦{fullShare} V m c main_v0))

/-- The table's array is an input: the region leaves it as it found it. -/
theorem arrAt_tab (c : Dev nD) : (dats m 0 c).arrAt 4 cfg0.N = V m c main_arg1 :=
  ((dats m 0 c).arrAt_in 4 rfl _).trans (A_eq m c 4)

set_option backward.isDefEq.respectTransparency.types false in
/-- THE REGION: entered from what the first reshape left — the reshaped adjacency dealt in quarters to its four
    windows, the table and the result whole to theirs, the adjacency itself and @main's result buffer bypassing —,
    left with the result array and @main's result buffer for the last reshape and both arguments kept. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) tailRefs (V₁ m c) ∗ Kept m c)
  X c := iprop(emp)
  Y c := iprop(emp)
  Z c := Bypass m c
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs 0 winFacts₀0.arr_unscoped c (V m c), unscopedRest0_eq c (V m c), arrBufs_eq, arrays_eq_chain]
    iintro ⟨⟨⟨⟨Hadj, Htab, Hres⟩, H0, Hv0⟩, HO⟩, -, -⟩
    ihave Hq := (quarters _ _) $$ Hadj
    icases Hq with ⟨Ha, Hb, Hc, Hd⟩
    imodintro
    isplitl [Ha Hb Hc Hd Htab Hres]
    · isplitl [Ha]; · iexact Ha
      isplitl [Hb]; · iexact Hb
      isplitl [Hc]; · iexact Hc
      isplitl [Hd]; · iexact Hd
      isplitl [Htab]; · iexact Htab
      iexact Hres
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [H0]; · iexact H0
    iexact Hv0
  hin c := by
    rw [show (dats m 0 c).Φ 0 = Pipeline.scopedRest spec0 c from rfl]
    iintro ⟨-, -, Hr⟩; iexact Hr
  hout c := by
    rw [Pipeline.ownSems0_none, show (dats m 0 c).Φ (Fin.last cfg0.N) = Pipeline.scopedRest spec0 c from rfl]
    iintro Hr
    isplitr; · iempintro
    isplitr; · iempintro
    iexact Hr
  hexit c := by
    rw [arrays_eq_chain, held_tail, V₁_res, V₁_out, arrAt_tab]
    iintro ⟨⟨-, -, -, -, Htab, Hres⟩, HO, -, ⟨H0, Hv0⟩⟩
    imodintro
    isplitl [Hres Hv0]
    · isplitl [Hres]; · iexact Hres
      iexact Hv0
    isplitl [H0]; · iexact H0
    isplitl [Htab]; · iexact Htab
    unfold Pipeline.Dat.owesAt Pipeline.owesWithin
    icases HO with ⟨%W, -, HO⟩; iexists W; iexact HO

/-! ## @main -/

/-- @main as the list of the three. -/
abbrev segs : List (Pipeline.Seg (pcfgs (F := F)) adm (dats m) () defs₀ 𝒱₀ L lv) := [.host (seg0 m), .region (reg0 m), .host (seg1 m)]

/-- What @main's result buffer holds at the end: the last reshape of the result array as the region left it. -/
def finalOut (c : Dev nD) : Buf (Elt F) ((c : Thread nD τ).loc main_v0) := StableHlo.after hostOps1 (V₁ m c) main_v0

set_option backward.isDefEq.respectTransparency.types false in
/-- At the compiled mesh, from any memory with zero counters: every weakly fair execution of @main terminates, and
    every final state has @main's result at `finalOut` and both arguments as launched. -/
theorem run_main : θ_run defs (onTc (τ := τ) (main (F := F))) (s₀ m ρ) (fun r => ∀ c : Dev nD,
      r.2.mem ((c.tc : Thread nD τ).loc main_v0) = finalOut m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells (Pipeline.pin pcfgs adm) cellOf_inj) (Pipeline.launchToks (Pipeline.pin pcfgs adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => iprop(StableHlo.held (c : Thread nD τ) tailRefs (StableHlo.after hostOps1 (V₁ m c))
      ∗ (((c : Thread nD τ).loc main_arg0) ↦{fullShare} V m c main_arg0) ∗ (((c : Thread nD τ).loc main_arg1) ↦{fullShare} V m c main_arg1)))
    (hch := ⟨fun _ => .rfl, fun _ => .rfl, fun _ => .rfl, fun c => (show iprop(StableHlo.held (c : Thread nD τ) tailRefs (StableHlo.after hostOps1 (V₁ m c)) ∗ Kept m c) ⊢ _ from by
      iintro ⟨Hh, H0, H1, HR⟩
      isplitr [HR]
      · isplitl [Hh]; · iexact Hh
        isplitl [H0]; · iexact H0
        iexact H1
      iexact HR)⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v0) = finalOut m c
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      rw [held_tail, V_main_arg0, V_main_arg1]
      iintro ⟨⟨⟨-, Hv0⟩, H0, H1⟩, HSI⟩
      icombine HSI Hv0 gives %h0
      icombine HSI H0 gives %h1
      icombine HSI H1 gives %h2
      imodintro
      isplitr; · ipureintro; exact ⟨Buf.eq_of_forall_mem_univ h0, Buf.eq_of_forall_mem_univ h1, Buf.eq_of_forall_mem_univ h2⟩
      iexact HSI)
    (hQ := fun _ h => h)

/-- The frame: @main runs to its end and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.BodyI.lean ====
/-
  The kernel body, run once on whole staging buffers.

  At a grid point the body reads four row bands of the adjacency (each a 1×128×4096 block of the
  reshaped array, one per stream) and the whole 4096×256 embedding table, multiplies each band by the
  table into a zero accumulator, and stores the four 128×256 products as the four slabs of its 4×128×256
  output block. Each slab is first loaded and the loaded value dropped; nothing of the block's previous
  contents survives, because the four stores tile the block. `outBlk` names the block the body leaves as
  a function of what it read; `sound_body_once` is the body's triple.
-/
import proofs.«166637_g29180007809569_cont_9to1_395_11_alg».proof.Proof.Gen.KernelIdeal.Launch
import proofs.«166637_g29180007809569_cont_9to1_395_11_alg».proof.Proof.Gen.KernelIdeal.Skeleton
import proofs.«166637_g29180007809569_cont_9to1_395_11_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- A whole band block. -/
abbrev rBand : Rect S1x128x4096 := Rect.unit (s := S1x128x4096) ![0, 0, 0] S1x128x4096.size inb_S1x128x4096_S1x128x4096_0_0_0
/-- The whole table. -/
abbrev rTab : Rect S4096x256 := Rect.unit (s := S4096x256) ![0, 0] S4096x256.size inb_S4096x256_S4096x256_0_0
/-- Slab `s` of the output block, `s = 0, 1, 2, 3`. -/
abbrev rSlab0 : Rect S4x128x256 := Rect.unit (s := S4x128x256) ![0, 0, 0] S1x128x256.size inb_S4x128x256_S1x128x256_0_0_0
abbrev rSlab1 : Rect S4x128x256 := Rect.unit (s := S4x128x256) ![1, 0, 0] S1x128x256.size inb_S4x128x256_S1x128x256_1_0_0
abbrev rSlab2 : Rect S4x128x256 := Rect.unit (s := S4x128x256) ![2, 0, 0] S1x128x256.size inb_S4x128x256_S1x128x256_2_0_0
abbrev rSlab3 : Rect S4x128x256 := Rect.unit (s := S4x128x256) ![3, 0, 0] S1x128x256.size inb_S4x128x256_S1x128x256_3_0_0

/-! ## What the body leaves in the output block -/

/-- The output block after the body, from the four bands and the table: its four stores as pieces, the last
    store first. -/
def outBlk (x0 x1 x2 x3 : Vec F S1x128x4096 .f32) (e : Vec F S4096x256 .f32) : Vec F S4x128x256 .f32 :=
  View.canon [⟨rSlab3, k0_pay1 (k0_pay5 (View.ld x3 rBand)) (View.ld e rTab)⟩,
    ⟨rSlab2, k0_pay4 (View.ld x2 rBand) (View.ld e rTab)⟩,
    ⟨rSlab1, k0_pay3 (View.ld x1 rBand) (View.ld e rTab)⟩,
    ⟨rSlab0, k0_pay2 (View.ld x0 rBand) (View.ld e rTab)⟩]

/-- The four slabs tile the block, so every index of the block lies in one of them. -/
theorem slabs_cover (p3 p2 p1 p0 : Vec F S1x128x256 .f32) (y : S4x128x256.Idx) :
    ∃ pc ∈ ([⟨rSlab3, p3⟩, ⟨rSlab2, p2⟩, ⟨rSlab1, p1⟩, ⟨rSlab0, p0⟩] : List (View.Piece (Elt F) S4x128x256 .f32)), y ∈ pc.1.set :=
  View.cover_of_tiled [⟨rSlab3, p3⟩, ⟨rSlab2, p2⟩, ⟨rSlab1, p1⟩, ⟨rSlab0, p0⟩] S1x128x256.size (by rfl) y

/-! ## The body's triple -/

set_option maxHeartbeats 4000000 in
/-- The body on whole staging memrefs — the four bands' at `x0 … x3`, the table's at `e`, the output's at
    anything — runs to the continuation holding the inputs' as they were and the output's at `outBlk`. -/
theorem sound_body_once (c : Dev nD) (E : Set ℕ) (i : grid0.Coords)
    (arg1 : Memref sig .tc .vmem S1x128x4096 .f32) (harg1 : arg1.IsWhole) (arg2 : Memref sig .tc .vmem S1x128x4096 .f32) (harg2 : arg2.IsWhole)
    (arg3 : Memref sig .tc .vmem S1x128x4096 .f32) (harg3 : arg3.IsWhole) (arg4 : Memref sig .tc .vmem S1x128x4096 .f32) (harg4 : arg4.IsWhole)
    (arg5 : Memref sig .tc .vmem S4096x256 .f32) (harg5 : arg5.IsWhole) (arg6 : Memref sig .tc .vmem S4x128x256 .f32) (harg6 : arg6.IsWhole)
    (x0 x1 x2 x3 : Vec F S1x128x4096 .f32) (e : Vec F S4096x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare e ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare e
            ∗ owns (c : Thread nD τ) arg6 fullShare (outBlk x0 x1 x2 x3 e)) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (slabs_cover _ _ _ _)

end Cert.KernelIdeal.Hand

end
-- ==== Proof.DataI.lean ====
/-
  The pipeline's proof data and the body obligation.

  The region's arrays are the reshaped adjacency (read by four windows, one per stream), the embedding
  table (one window, fetched once) and the 4×1024×256 result (one window, written back at every point).
  At point `t` window `s < 4` holds rows `128 t … 128 t + 127` of band `s` of the reshaped adjacency,
  window 4 the whole table, and the body leaves in window 5 the block `outBlk` of those. The adjacency's
  array is held by four windows at once, so its full share is dealt among them in quarters.
-/
import proofs.«166637_g29180007809569_cont_9to1_395_11_alg».proof.Proof.BodyI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered -/

/-- Core `c`'s buffers at launch, as a valuation; -/
abbrev V₀ (c : Dev nD) : Valuation τ sig (Elt F) := fun b => m (c, b)
/-- and when the region is entered: the reshape of the adjacency has run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The share each window holds of its array: a quarter of the adjacency's for each of its four windows. -/
abbrev shares : Fin cfg0.W → PosShare TreeShare
  | ⟨0, _⟩ => fullShare.left.left
  | ⟨1, _⟩ => fullShare.left.right
  | ⟨2, _⟩ => fullShare.right.left
  | ⟨3, _⟩ => fullShare.right.right
  | _ => fullShare

/-- The proof data on core `c`: the arrays as the region finds them; after the body each input window at its
    block and the output window at `outBlk` of the input blocks; between points nothing but the scoped buffers
    no window stages; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.scopedRest spec0 c
  q := shares
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlk (iblk m c 0 t) (iblk m c 1 t) (iblk m c 2 t) (iblk m c 3 t) (iblk m c 4 t) := by dsimp only [dats]

/-! ## What each input window's buffer holds when the body runs

An input window's buffer holds its block at every point, fetched there or not: where it is not fetched
(the table after the first point) the block index has not moved and the body left the block in place. -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input windows' buffers hold their blocks, so the body's triple applies; what
    rides between points passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_body_once c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.RunI.lean ====
/-
  The run of @main: reshape, the kernel region, reshape.

  @main reshapes the 4096×4096 adjacency to 4×1024×4096, runs the one kernel region over it and the
  embedding table into a 4×1024×256 result, and reshapes that to 4096×256. It is run as three segments:
  the first reshape over the unscoped buffers; the region, entered with the reshaped adjacency dealt in
  quarters to its four windows, the table and the result each whole to its one window, and the two buffers
  no window stages set aside; the last reshape over the region's result and @main's result buffer alone.
  At the end @main's result holds the last reshape of the result array as the region's write-backs left it,
  and both arguments hold what they held at launch.
-/
import proofs.«166637_g29180007809569_cont_9to1_395_11_alg».proof.Proof.DataI
import Idealize.ShloMosaic.Lib.Pipeline.Regions
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's parameters: nothing owed, no level, no table -/

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

/-- What rides beside the buffers from segment to segment: the core owing nothing. -/
abbrev R (c : Dev nD) : sProp 𝕄 := iprop(∃ W, owes (c : Thread nD τ) (0 : CellTallies nD τ sig Unit) W)

/-! ## The first reshape -/

theorem hostOps0_fresh : ∀ op ∈ (hostOps0 : List (HloOp τ sig (Elt F))), op.fresh = ∅ := by
  intro _ h; (repeat (cases h with | head => rfl | tail _ h => ?_)); exact nomatch h

/-- The first reshape, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- The first reshape writes neither argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))

/-! ## The last reshape -/

/-- The two buffers the last reshape touches. -/
def tailRefs : Finset (DevRef τ sig) :=
  ({main_call0_v1, main_v0} : Finset (Ref sig .tc)).map ⟨Proc.devRef (sig := sig) .tc, Proc.devRef_injective _⟩

/-- The buffers as the region leaves them: the result array at what the write-backs made of it, every other
    buffer as the region found it. -/
def V₁ (c : Dev nD) : Valuation τ sig (Elt F) :=
  Function.update (StableHlo.after hostOps0 (V₀ m c)) (Proc.devRef .tc main_call0_v1) ((dats m 0 c).arrAt 5 cfg0.N)

theorem V₁_res (c : Dev nD) : V₁ m c (Proc.devRef .tc main_call0_v1) = (dats m 0 c).arrAt 5 cfg0.N := by
  unfold V₁; exact Function.update_self ..
theorem V₁_out (c : Dev nD) : V₁ m c (Proc.devRef .tc main_v0) = V m c main_v0 := by
  unfold V₁; exact Function.update_of_ne (StableHlo.devRef_ne_of_ne (by decide)) ..

theorem hostOps1_fresh : ∀ op ∈ (hostOps1 : List (HloOp τ sig (Elt F))), op.fresh = ∅ := by
  intro _ h; (repeat (cases h with | head => rfl | tail _ h => ?_)); exact nomatch h

theorem hostOps1_within : ∀ op ∈ (hostOps1 : List (HloOp τ sig (Elt F))), op.bufs ⊆ tailRefs := by
  intro op h
  simp only [hostOps1, List.mem_cons, List.mem_nil_iff, or_false] at h
  subst h
  intro b hb
  have hb' : b ∈ ({Proc.devRef .tc main_call0_v1, Proc.devRef .tc main_v0} : Finset (DevRef τ sig)) := hb
  simp only [Finset.mem_insert, Finset.mem_singleton] at hb'
  rcases hb' with rfl | rfl <;> exact Finset.mem_map_of_mem _ (by decide)

/-- What the last reshape does not touch and the end still reads: both arguments. -/
abbrev Kept (c : Dev nD) : sProp 𝕄 :=
  iprop((((c : Thread nD τ).loc main_arg0) ↦{fullShare} V m c main_arg0) ∗ (((c : Thread nD τ).loc main_arg1) ↦{fullShare} V m c main_arg1) ∗ R c)

/-- The last reshape, over the region's result and @main's result buffer. -/
def seg1 : Pipeline.HostSeg (Name := ℕ) (U := UR sig nD τ) (pcfgs (F := F)) defs₀ 𝒱₀ L lv :=
  Pipeline.HostSeg.ofOps _ _ _ _ _ tailRefs hostOps1 hostOps1_within hostOps1_fresh (V₁ m) (Kept m)

/-! ## The region -/

/-- The buffers behind the windows' arrays, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_call0_v0) ↦{fullShare} W main_call0_v0) ∗ (((c : Thread nD τ).loc main_arg1) ↦{fullShare} W main_arg1)
          ∗ (((c : Thread nD τ).loc main_call0_v1) ↦{fullShare} W main_call0_v1)) := by
  unfold Pipeline.arrBufs
  exact BI.bigSep_eq_bigSepL_of_eq [main_call0_v0, main_arg1, main_call0_v1] (by decide) (by decide) _

/-- The pipeline's arrays, window by window: the reshaped adjacency four times, a quarter share each; the table
    and the result whole. -/
theorem arrays_eq_chain (c : Dev nD) (Fn : (w : Fin cfg0.W) → Buf (Elt F) ((cfg0.win w).arr.view.loc (c : Thread nD τ))) :
    ((dats m 0 c).arrays Fn : sProp 𝕄)
      = iprop((((c : Thread nD τ).loc main_call0_v0) ↦{fullShare.left.left} Fn 0) ∗ (((c : Thread nD τ).loc main_call0_v0) ↦{fullShare.left.right} Fn 1)
          ∗ (((c : Thread nD τ).loc main_call0_v0) ↦{fullShare.right.left} Fn 2) ∗ (((c : Thread nD τ).loc main_call0_v0) ↦{fullShare.right.right} Fn 3)
          ∗ (((c : Thread nD τ).loc main_arg1) ↦{fullShare} Fn 4) ∗ (((c : Thread nD τ).loc main_call0_v1) ↦{fullShare} Fn 5)) := by
  unfold Dat.arrays
  rw [bigSep_W0, (arr_whole0 0).set_eq_univ, (arr_whole0 4).set_eq_univ, (arr_whole0 5).set_eq_univ]
  rfl

/-- The full share of a buffer dealt in quarters. -/
theorem quarters (ℓ : Loc nD τ sig) (f : Buf (Elt F) ℓ) :
    (ℓ ↦{fullShare} f : sProp 𝕄) ⊢ iprop((ℓ ↦{fullShare.left.left} f) ∗ (ℓ ↦{fullShare.left.right} f) ∗ (ℓ ↦{fullShare.right.left} f) ∗ (ℓ ↦{fullShare.right.right} f)) := by
  iintro H
  ihave Hs := (pointsTo_share (PosShare.mem_left_op_right fullShare)).1 $$ H
  icases Hs with ⟨Hl, Hr⟩
  ihave Hls := (pointsTo_share (PosShare.mem_left_op_right fullShare.left)).1 $$ Hl
  ihave Hrs := (pointsTo_share (PosShare.mem_left_op_right fullShare.right)).1 $$ Hr
  icases Hls with ⟨Ha, Hb⟩
  icases Hrs with ⟨Hc, Hd⟩
  isplitl [Ha]; · iexact Ha
  isplitl [Hb]; · iexact Hb
  isplitl [Hc]; · iexact Hc
  iexact Hd

/-- The two buffers of the last reshape, listed. -/
theorem held_tail (c : Dev nD) (W : Valuation τ sig (Elt F)) :
    (StableHlo.held (Ix := Unit) (Name := ℕ) (U := UR sig nD τ) (Lvl := ℕ) (c : Thread nD τ) tailRefs W : sProp 𝕄)
      = iprop((((c : Thread nD τ).loc main_call0_v1) ↦{fullShare} W main_call0_v1) ∗ (((c : Thread nD τ).loc main_v0) ↦{fullShare} W main_v0)) := by
  unfold StableHlo.held tailRefs
  rw [bigSep_map]
  exact BI.bigSep_eq_bigSepL_of_eq [main_call0_v1, main_v0] (by decide) (by decide) _

/-- What bypasses the region: the two buffers no window stages. -/
abbrev Bypass (c : Dev nD) : sProp 𝕄 :=
  iprop((((c : Thread nD τ).loc main_arg0) ↦{fullShare} V m c main_arg0) ∗ (((c : Thread nD τ).loc main_v0) ↦{fullShare} V m c main_v0))

/-- The table's array is an input: the region leaves it as it found it. -/
theorem arrAt_tab (c : Dev nD) : (dats m 0 c).arrAt 4 cfg0.N = V m c main_arg1 :=
  ((dats m 0 c).arrAt_in 4 rfl _).trans (A_eq m c 4)

set_option backward.isDefEq.respectTransparency.types false in
/-- THE REGION: entered from what the first reshape left — the reshaped adjacency dealt in quarters to its four
    windows, the table and the result whole to theirs, the adjacency itself and @main's result buffer bypassing —,
    left with the result array and @main's result buffer for the last reshape and both arguments kept. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) tailRefs (V₁ m c) ∗ Kept m c)
  X c := iprop(emp)
  Y c := iprop(emp)
  Z c := Bypass m c
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs 0 winFacts₀0.arr_unscoped c (V m c), unscopedRest0_eq c (V m c), arrBufs_eq, arrays_eq_chain]
    iintro ⟨⟨⟨⟨Hadj, Htab, Hres⟩, H0, Hv0⟩, HO⟩, -, -⟩
    ihave Hq := (quarters _ _) $$ Hadj
    icases Hq with ⟨Ha, Hb, Hc, Hd⟩
    imodintro
    isplitl [Ha Hb Hc Hd Htab Hres]
    · isplitl [Ha]; · iexact Ha
      isplitl [Hb]; · iexact Hb
      isplitl [Hc]; · iexact Hc
      isplitl [Hd]; · iexact Hd
      isplitl [Htab]; · iexact Htab
      iexact Hres
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [H0]; · iexact H0
    iexact Hv0
  hin c := by
    rw [show (dats m 0 c).Φ 0 = Pipeline.scopedRest spec0 c from rfl]
    iintro ⟨-, -, Hr⟩; iexact Hr
  hout c := by
    rw [Pipeline.ownSems0_none, show (dats m 0 c).Φ (Fin.last cfg0.N) = Pipeline.scopedRest spec0 c from rfl]
    iintro Hr
    isplitr; · iempintro
    isplitr; · iempintro
    iexact Hr
  hexit c := by
    rw [arrays_eq_chain, held_tail, V₁_res, V₁_out, arrAt_tab]
    iintro ⟨⟨-, -, -, -, Htab, Hres⟩, HO, -, ⟨H0, Hv0⟩⟩
    imodintro
    isplitl [Hres Hv0]
    · isplitl [Hres]; · iexact Hres
      iexact Hv0
    isplitl [H0]; · iexact H0
    isplitl [Htab]; · iexact Htab
    unfold Pipeline.Dat.owesAt Pipeline.owesWithin
    icases HO with ⟨%W, -, HO⟩; iexists W; iexact HO

/-! ## @main -/

/-- @main as the list of the three. -/
abbrev segs : List (Pipeline.Seg (pcfgs (F := F)) adm (dats m) () defs₀ 𝒱₀ L lv) := [.host (seg0 m), .region (reg0 m), .host (seg1 m)]

/-- What @main's result buffer holds at the end: the last reshape of the result array as the region left it. -/
def finalOut (c : Dev nD) : Buf (Elt F) ((c : Thread nD τ).loc main_v0) := StableHlo.after hostOps1 (V₁ m c) main_v0

set_option backward.isDefEq.respectTransparency.types false in
/-- At the compiled mesh, from any memory with zero counters: every weakly fair execution of @main terminates, and
    every final state has @main's result at `finalOut` and both arguments as launched. -/
theorem run_main : θ_run defs (onTc (τ := τ) (main (F := F))) (s₀ m ρ) (fun r => ∀ c : Dev nD,
      r.2.mem ((c.tc : Thread nD τ).loc main_v0) = finalOut m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells (Pipeline.pin pcfgs adm) cellOf_inj) (Pipeline.launchToks (Pipeline.pin pcfgs adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => iprop(StableHlo.held (c : Thread nD τ) tailRefs (StableHlo.after hostOps1 (V₁ m c))
      ∗ (((c : Thread nD τ).loc main_arg0) ↦{fullShare} V m c main_arg0) ∗ (((c : Thread nD τ).loc main_arg1) ↦{fullShare} V m c main_arg1)))
    (hch := ⟨fun _ => .rfl, fun _ => .rfl, fun _ => .rfl, fun c => (show iprop(StableHlo.held (c : Thread nD τ) tailRefs (StableHlo.after hostOps1 (V₁ m c)) ∗ Kept m c) ⊢ _ from by
      iintro ⟨Hh, H0, H1, HR⟩
      isplitr [HR]
      · isplitl [Hh]; · iexact Hh
        isplitl [H0]; · iexact H0
        iexact H1
      iexact HR)⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v0) = finalOut m c
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      rw [held_tail, V_main_arg0, V_main_arg1]
      iintro ⟨⟨⟨-, Hv0⟩, H0, H1⟩, HSI⟩
      icombine HSI Hv0 gives %h0
      icombine HSI H0 gives %h1
      icombine HSI H1 gives %h2
      imodintro
      isplitr; · ipureintro; exact ⟨Buf.eq_of_forall_mem_univ h0, Buf.eq_of_forall_mem_univ h1, Buf.eq_of_forall_mem_univ h2⟩
      iexact HSI)
    (hQ := fun _ h => h)

/-- The frame: @main runs to its end and leaves both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.PayloadI.lean ====
/-
  The output block at an index.

  Slab `s` of the block the body leaves is the product of band `s` with the table, so its entry at row
  `r` and column `d` is the sum over `k` of the band's entry `(r, k)` times the table's entry `(k, d)`:
  a matrix product into a zero accumulator is the plain sum of products on the extended reals, and the
  reshapes between a 1×128×n block and a 128×n matrix move no entry.
-/
import proofs.«166637_g29180007809569_cont_9to1_395_11_alg».proof.Proof.BodyI
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## The product's operand indices

The product contracts the band's second axis against the table's first: at output entry `j` and contraction
index `q` the band is read at `(j 0, q)` and the table at `(q, j 1)`. -/

/-- The band's row is the output's row. -/
theorem lhs_band_0 (j : S128x256.Idx) (q : dot_S128x4096_S4096x256_S128x256_1_0_0_1_n_n.contr.Idx) :
    (dot_S128x4096_S4096x256_S128x256_1_0_0_1_n_n.lhsIdx j q 0).val = (j 0).val := by
  unfold DotDims.lhsIdx
  rw [dif_neg (show ¬(0 : Fin S128x4096.rank) ∈ dot_S128x4096_S4096x256_S128x256_1_0_0_1_n_n.lhsBatch by decide), dif_pos (show (0 : Fin S128x4096.rank) ∈ dot_S128x4096_S4096x256_S128x256_1_0_0_1_n_n.lhsNonContracting by decide)]
  rfl
/-- The band's column is the contraction index. -/
theorem lhs_band_1 (j : S128x256.Idx) (q : dot_S128x4096_S4096x256_S128x256_1_0_0_1_n_n.contr.Idx) :
    (dot_S128x4096_S4096x256_S128x256_1_0_0_1_n_n.lhsIdx j q 1).val = (q ⟨0, by decide⟩).val :=
  dot_S128x4096_S4096x256_S128x256_1_0_0_1_n_n.lhsIdx_val_of_single rfl j q
/-- The table's row is the contraction index. -/
theorem rhs_tab_0 (j : S128x256.Idx) (q : dot_S128x4096_S4096x256_S128x256_1_0_0_1_n_n.contr.Idx) :
    (dot_S128x4096_S4096x256_S128x256_1_0_0_1_n_n.rhsIdx j q 0).val = (q ⟨0, by decide⟩).val :=
  dot_S128x4096_S4096x256_S128x256_1_0_0_1_n_n.rhsIdx_val_of_single rfl j q
/-- The table's column is the output's column. -/
theorem rhs_tab_1 (j : S128x256.Idx) (q : dot_S128x4096_S4096x256_S128x256_1_0_0_1_n_n.contr.Idx) :
    (dot_S128x4096_S4096x256_S128x256_1_0_0_1_n_n.rhsIdx j q 1).val = (j 1).val := by
  unfold DotDims.rhsIdx
  rw [dif_neg (show ¬(1 : Fin S4096x256.rank) ∈ dot_S128x4096_S4096x256_S128x256_1_0_0_1_n_n.rhsBatch by decide), dif_pos (show (1 : Fin S4096x256.rank) ∈ dot_S128x4096_S4096x256_S128x256_1_0_0_1_n_n.rhsNonContracting by decide)]
  rfl

/-! ## A band times the table, at an entry -/

/-- The product of a 128×4096 matrix with the table into a zero accumulator, at `(r, d)`: the sum over `k` of the
    matrix's `(r, k)` times the table's `(k, d)`. -/
theorem matmul_zero_rc (a : FVec Ideal S128x4096 .f32) (e : FVec Ideal S4096x256 .f32) (r : Fin 128) (d : Fin 256) :
    matmul dot_S128x4096_S4096x256_S128x256_1_0_0_1_n_n none a e (constant (F := Ideal) S128x256 .f32 0x00000000#32) (ix2 r d)
      = ∑ k : Fin 4096, a (ix2 r k) * e (ix2 k d) := by
  simp only [matmul]
  rw [Ideal.matmul_constant_zero_apply, ← Equiv.sum_comp (ValueIdx.contrEquiv1 dot_S128x4096_S4096x256_S128x256_1_0_0_1_n_n 4096 rfl rfl).symm]
  refine Finset.sum_congr rfl fun k _ => ?_
  have hk := ValueIdx.contrEquiv1_symm_val dot_S128x4096_S4096x256_S128x256_1_0_0_1_n_n 4096 rfl rfl k
  have el : dot_S128x4096_S4096x256_S128x256_1_0_0_1_n_n.lhsIdx (ix2 r d) ((ValueIdx.contrEquiv1 dot_S128x4096_S4096x256_S128x256_1_0_0_1_n_n 4096 rfl rfl).symm k) = ix2 r k := funext fun a => Fin.ext (by
    match a with
    | ⟨0, _⟩ => exact lhs_band_0 _ _
    | ⟨1, _⟩ => exact (lhs_band_1 _ _).trans hk)
  have er : dot_S128x4096_S4096x256_S128x256_1_0_0_1_n_n.rhsIdx (ix2 r d) ((ValueIdx.contrEquiv1 dot_S128x4096_S4096x256_S128x256_1_0_0_1_n_n 4096 rfl rfl).symm k) = ix2 k d := funext fun a => Fin.ext (by
    match a with
    | ⟨0, _⟩ => exact (rhs_tab_0 _ _).trans hk
    | ⟨1, _⟩ => exact rhs_tab_1 _ _)
  rw [el, er]

/-! ## The four payloads at an entry -/

/-- A band block as a matrix: the leading unit axis dropped. -/
theorem pay5_apply (x : Vec Ideal S1x128x4096 .f32) (r : Fin 128) (k : Fin 4096) :
    k0_pay5 (F := Ideal) x (ix2 r k) = x (ix3 (0 : Fin 1) r k) := by
  unfold k0_pay5
  exact shapeCast_1ab_ab_apply x _ r k

/-- Slab 0's payload at `(0, r, d)`. -/
theorem pay2_apply (x : Vec Ideal S1x128x4096 .f32) (e : Vec Ideal S4096x256 .f32) (r : Fin 128) (d : Fin 256) :
    k0_pay2 (F := Ideal) x e (ix3 (0 : Fin 1) r d) = ∑ k : Fin 4096, x (ix3 (0 : Fin 1) r k) * e (ix2 k d) := by
  unfold k0_pay2
  rw [shapeCast_ab_1ab_apply, matmul_zero_rc]
  refine Finset.sum_congr rfl fun k _ => ?_
  rw [shapeCast_1ab_ab_apply]

/-- Slab 1's payload at `(0, r, d)`. -/
theorem pay3_apply (x : Vec Ideal S1x128x4096 .f32) (e : Vec Ideal S4096x256 .f32) (r : Fin 128) (d : Fin 256) :
    k0_pay3 (F := Ideal) x e (ix3 (0 : Fin 1) r d) = ∑ k : Fin 4096, x (ix3 (0 : Fin 1) r k) * e (ix2 k d) := by
  unfold k0_pay3
  rw [shapeCast_ab_1ab_apply, matmul_zero_rc]
  refine Finset.sum_congr rfl fun k _ => ?_
  rw [shapeCast_1ab_ab_apply]

/-- Slab 2's payload at `(0, r, d)`. -/
theorem pay4_apply (x : Vec Ideal S1x128x4096 .f32) (e : Vec Ideal S4096x256 .f32) (r : Fin 128) (d : Fin 256) :
    k0_pay4 (F := Ideal) x e (ix3 (0 : Fin 1) r d) = ∑ k : Fin 4096, x (ix3 (0 : Fin 1) r k) * e (ix2 k d) := by
  unfold k0_pay4
  rw [shapeCast_ab_1ab_apply, matmul_zero_rc]
  refine Finset.sum_congr rfl fun k _ => ?_
  rw [shapeCast_1ab_ab_apply]

/-- Slab 3's payload at `(0, r, d)`: the band arrives already as a matrix. -/
theorem pay1_apply (x : Vec Ideal S1x128x4096 .f32) (e : Vec Ideal S4096x256 .f32) (r : Fin 128) (d : Fin 256) :
    k0_pay1 (F := Ideal) (k0_pay5 (F := Ideal) x) e (ix3 (0 : Fin 1) r d)
      = ∑ k : Fin 4096, x (ix3 (0 : Fin 1) r k) * e (ix2 k d) := by
  unfold k0_pay1
  rw [shapeCast_ab_1ab_apply, matmul_zero_rc]
  refine Finset.sum_congr rfl fun k _ => ?_
  rw [pay5_apply]

/-! ## An entry of the block lies in one slab -/

/-- Entry `(0, r, d)` of the slab at offset `o` along the first axis is entry `(o, r, d)` of the block. -/
theorem slab_emb (o : ℕ) (ho : o < 4) (inb : ∀ a, (![o, 0, 0] : Fin 3 → ℕ) a + S1x128x256.size a ≤ S4x128x256.size a)
    (r : Fin 128) (d : Fin 256) :
    (Rect.unit (s := S4x128x256) ![o, 0, 0] S1x128x256.size inb).emb (ix3 (0 : Fin 1) r d) = ix3 (⟨o, ho⟩ : Fin 4) r d :=
  funext fun a => Fin.ext (by
    match a with
    | ⟨0, _⟩ => show o + 1 * 0 = o; omega
    | ⟨1, _⟩ => show 0 + 1 * r.val = r.val; omega
    | ⟨2, _⟩ => show 0 + 1 * d.val = d.val; omega)

/-- Entry `(o', r, d)` of the block is not in the slab at another offset `o`. -/
theorem not_mem_slab (o o' : ℕ) (ho' : o' < 4) (hne : o' ≠ o)
    (inb : ∀ a, (![o, 0, 0] : Fin 3 → ℕ) a + S1x128x256.size a ≤ S4x128x256.size a) (r : Fin 128) (d : Fin 256) :
    ix3 (⟨o', ho'⟩ : Fin 4) r d ∉ (Rect.unit (s := S4x128x256) ![o, 0, 0] S1x128x256.size inb).set := by
  rw [Rect.mem_set_unit]
  intro h
  have h0 := h 0
  change o ≤ o' ∧ o' < o + 1 at h0
  omega

/-- A last store into the slab at offset `o` is what the block reads at `(o, r, d)`; -/
theorem canon_slab_hit (o : ℕ) (ho : o < 4) (inb : ∀ a, (![o, 0, 0] : Fin 3 → ℕ) a + S1x128x256.size a ≤ S4x128x256.size a)
    (w : Vec Ideal S1x128x256 .f32) (L : List (View.Piece (Elt Ideal) S4x128x256 .f32)) (r : Fin 128) (d : Fin 256) :
    View.canon (⟨Rect.unit (s := S4x128x256) ![o, 0, 0] S1x128x256.size inb, w⟩ :: L) (ix3 (⟨o, ho⟩ : Fin 4) r d)
      = w (ix3 (0 : Fin 1) r d) := by
  rw [← slab_emb o ho inb r d]
  exact View.canon_cons_emb (Rect.unit (s := S4x128x256) ![o, 0, 0] S1x128x256.size inb) w L (ix3 (0 : Fin 1) r d)

/-- at `(o', r, d)` with `o'` another offset it reads the earlier stores. -/
theorem canon_slab_miss (o o' : ℕ) (ho' : o' < 4) (hne : o' ≠ o)
    (inb : ∀ a, (![o, 0, 0] : Fin 3 → ℕ) a + S1x128x256.size a ≤ S4x128x256.size a)
    (w : Vec Ideal S1x128x256 .f32) (L : List (View.Piece (Elt Ideal) S4x128x256 .f32)) (r : Fin 128) (d : Fin 256) :
    View.canon (⟨Rect.unit (s := S4x128x256) ![o, 0, 0] S1x128x256.size inb, w⟩ :: L) (ix3 (⟨o', ho'⟩ : Fin 4) r d)
      = View.canon L (ix3 (⟨o', ho'⟩ : Fin 4) r d) :=
  View.canon_cons_of_not_mem _ L (not_mem_slab o o' ho' hne inb r d)

/-! ## The block at an entry -/

/-- Entry `(s, r, d)` of the block the body leaves: row `r` of band `s` against column `d` of the table. -/
theorem outBlk_apply (x0 x1 x2 x3 : Vec Ideal S1x128x4096 .f32) (e : Vec Ideal S4096x256 .f32)
    (s : Fin 4) (r : Fin 128) (d : Fin 256) :
    outBlk (F := Ideal) x0 x1 x2 x3 e (ix3 s r d)
      = ∑ k : Fin 4096, (![x0, x1, x2, x3] s) (ix3 (0 : Fin 1) r k) * e (ix2 k d) := by
  unfold outBlk
  simp only [View.ld_unit_zero (S := S1x128x4096) (off := ![0, 0, 0]) (funext fun a => by match a with | ⟨0, _⟩ => rfl | ⟨1, _⟩ => rfl | ⟨2, _⟩ => rfl),
    View.ld_unit_zero (S := S4096x256) (off := ![0, 0]) (funext fun a => by match a with | ⟨0, _⟩ => rfl | ⟨1, _⟩ => rfl)]
  match s with
  | ⟨0, h⟩ =>
    rw [canon_slab_miss 3 0 h (by decide), canon_slab_miss 2 0 h (by decide), canon_slab_miss 1 0 h (by decide),
      canon_slab_hit 0 h, pay2_apply]
    rfl
  | ⟨1, h⟩ =>
    rw [canon_slab_miss 3 1 h (by decide), canon_slab_miss 2 1 h (by decide), canon_slab_hit 1 h, pay3_apply]
    rfl
  | ⟨2, h⟩ =>
    rw [canon_slab_miss 3 2 h (by decide), canon_slab_hit 2 h, pay4_apply]
    rfl
  | ⟨3, h⟩ =>
    rw [canon_slab_hit 3 h, pay1_apply]
    rfl

end Cert.KernelIdeal.Hand

end
-- ==== Proof.ArrayI.lean ====
/-
  The result array after the region.

  The region's result is a 4×1024×256 array written back in eight blocks: point `t` writes rows
  `128 t … 128 t + 127` of every one of the four slabs, and those eight blocks tile the array. What point
  `t` writes is the block the body leaves there: slab `s` of it is the product of stream `s`'s band block
  with the table. Stream `s`'s block at point `t` is rows `128 t … 128 t + 127` of band `s` of the
  reshaped adjacency, and the table's block is the whole table at every point. So entry `(s, r, d)` of the
  result depends on row `r` of band `s` of the reshaped adjacency and on column `d` of the table only: it
  is the sum over `k` of the one's entry `(s, r, k)` times the other's entry `(k, d)`. The reshape that
  made the bands moves no entry in row-major order, so entry `(s, r, k)` of the reshaped adjacency is entry
  `(1024 s + r, k)` of the adjacency as launched, and the table is as launched: entry `(s, r, d)` of the
  result is row `1024 s + r` of the adjacency against column `d` of the table.
-/
import proofs.«166637_g29180007809569_cont_9to1_395_11_alg».proof.Proof.DataI
import proofs.«166637_g29180007809569_cont_9to1_395_11_alg».proof.Proof.PayloadI
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Tactic
open Idealize.SL Idealize.SL.Sem
open Idealize.ShloMosaic.Pipeline (Dat Cfg Window)

variable (m : (ℓ : Loc nD τ sig) → Buf (Elt Ideal) ℓ)

/-! ## The arrays and the banded product -/

/-- The adjacency on core `c` at launch, as an array of extended reals; -/
abbrev adj (c : Dev nD) : S4096x4096.Idx → EReal := m ((c : Thread nD τ).loc main_arg0)
/-- and the embedding table. -/
abbrev tab (c : Dev nD) : S4096x256.Idx → EReal := m ((c : Thread nD τ).loc main_arg1)

/-- Row `r` of band `s` of a banded matrix against column `d` of a table. -/
def bandDot (R : S4x1024x4096.Idx → EReal) (E : S4096x256.Idx → EReal) (s : Fin 4) (r : Fin 1024) (d : Fin 256) : EReal :=
  ∑ k : Fin 4096, R (ix3 s r k) * E (ix2 k d)

/-- The banded product, as one array. -/
def bandProd (R : S4x1024x4096.Idx → EReal) (E : S4096x256.Idx → EReal) : S4x1024x256.Idx → EReal :=
  fun i => bandDot R E (i 0) (i 1) (i 2)

/-! ## The block indices and the arrays the region finds -/

/-- The windows' block indices at point `t`: stream `s` is at `(s, t, 0)`, the table at `(0, 0)`, the result
    at `(0, t, 0)`. -/
theorem block_indices : ∀ t : Fin cfg0.N,
    (win0_0.index t (0 : Fin 3) = 0 ∧ win0_0.index t (1 : Fin 3) = t.val ∧ win0_0.index t (2 : Fin 3) = 0)
    ∧ (win0_1.index t (0 : Fin 3) = 1 ∧ win0_1.index t (1 : Fin 3) = t.val ∧ win0_1.index t (2 : Fin 3) = 0)
    ∧ (win0_2.index t (0 : Fin 3) = 2 ∧ win0_2.index t (1 : Fin 3) = t.val ∧ win0_2.index t (2 : Fin 3) = 0)
    ∧ (win0_3.index t (0 : Fin 3) = 3 ∧ win0_3.index t (1 : Fin 3) = t.val ∧ win0_3.index t (2 : Fin 3) = 0)
    ∧ (win0_4.index t (0 : Fin 2) = 0 ∧ win0_4.index t (1 : Fin 2) = 0)
    ∧ (win0_5.index t (0 : Fin 3) = 0 ∧ win0_5.index t (1 : Fin 3) = t.val ∧ win0_5.index t (2 : Fin 3) = 0) :=
  (by decide +kernel : ∀ t : Fin grid0.N, _)

/-- When the region is entered the banded array is the reshape of the adjacency as launched, -/
theorem entered_adj (c : Dev nD) :
    (V m c main_call0_v0 : S4x1024x4096.Idx → EReal) = shapeCast S4x1024x4096 (adj m c) shapeCasts_S4096x4096_S4x1024x4096 := by
  dsimp only [V, hostOps0]
  after_results
  rfl

/-- and the table is as launched: the reshape does not write it. -/
theorem entered_tab (c : Dev nD) : (V m c main_arg1 : S4096x256.Idx → EReal) = tab m c := by
  dsimp only [V, hostOps0]
  after_results

/-! ## The input blocks at a point -/

/-- Stream 0's block at point `t`: its entry `(0, r, k)` is the banded adjacency's entry `(0, 128 t + r, k)`. -/
theorem band_block0 (c : Dev nD) (t : Fin cfg0.N) (x : S1x128x4096.Idx) (k : S4x1024x4096.Idx)
    (hk0 : (k 0).val = 0) (hk1 : (k 1).val = 128 * t.val + (x 1).val) (hk2 : (k 2).val = (x 2).val) :
    (iblk m c 0 t : Vec Ideal S1x128x4096 .f32) x = (V m c main_call0_v0 : S4x1024x4096.Idx → EReal) k := by
  obtain ⟨f0, f1, f2⟩ := (block_indices t).1
  have hx0 : (x 0).val < 1 := (x 0).isLt
  unfold iblk
  rw [View.read_apply]
  show V m c main_call0_v0 _ = V m c main_call0_v0 _
  congr 1
  funext a
  apply Fin.ext
  match a with
  | ⟨0, _⟩ => show win0_0.index t (0 : Fin 3) * 1 + 1 * (x 0).val = (k 0).val; rw [f0, hk0]; omega
  | ⟨1, _⟩ => show win0_0.index t (1 : Fin 3) * 128 + 1 * (x 1).val = (k 1).val; rw [f1, hk1]; omega
  | ⟨2, _⟩ => show win0_0.index t (2 : Fin 3) * 4096 + 1 * (x 2).val = (k 2).val; rw [f2, hk2]; omega

/-- Stream 1's block at point `t`: its entry `(0, r, k)` is the banded adjacency's entry `(1, 128 t + r, k)`. -/
theorem band_block1 (c : Dev nD) (t : Fin cfg0.N) (x : S1x128x4096.Idx) (k : S4x1024x4096.Idx)
    (hk0 : (k 0).val = 1) (hk1 : (k 1).val = 128 * t.val + (x 1).val) (hk2 : (k 2).val = (x 2).val) :
    (iblk m c 1 t : Vec Ideal S1x128x4096 .f32) x = (V m c main_call0_v0 : S4x1024x4096.Idx → EReal) k := by
  obtain ⟨f0, f1, f2⟩ := (block_indices t).2.1
  have hx0 : (x 0).val < 1 := (x 0).isLt
  unfold iblk
  rw [View.read_apply]
  show V m c main_call0_v0 _ = V m c main_call0_v0 _
  congr 1
  funext a
  apply Fin.ext
  match a with
  | ⟨0, _⟩ => show win0_1.index t (0 : Fin 3) * 1 + 1 * (x 0).val = (k 0).val; rw [f0, hk0]; omega
  | ⟨1, _⟩ => show win0_1.index t (1 : Fin 3) * 128 + 1 * (x 1).val = (k 1).val; rw [f1, hk1]; omega
  | ⟨2, _⟩ => show win0_1.index t (2 : Fin 3) * 4096 + 1 * (x 2).val = (k 2).val; rw [f2, hk2]; omega

/-- Stream 2's block at point `t`: its entry `(0, r, k)` is the banded adjacency's entry `(2, 128 t + r, k)`. -/
theorem band_block2 (c : Dev nD) (t : Fin cfg0.N) (x : S1x128x4096.Idx) (k : S4x1024x4096.Idx)
    (hk0 : (k 0).val = 2) (hk1 : (k 1).val = 128 * t.val + (x 1).val) (hk2 : (k 2).val = (x 2).val) :
    (iblk m c 2 t : Vec Ideal S1x128x4096 .f32) x = (V m c main_call0_v0 : S4x1024x4096.Idx → EReal) k := by
  obtain ⟨f0, f1, f2⟩ := (block_indices t).2.2.1
  have hx0 : (x 0).val < 1 := (x 0).isLt
  unfold iblk
  rw [View.read_apply]
  show V m c main_call0_v0 _ = V m c main_call0_v0 _
  congr 1
  funext a
  apply Fin.ext
  match a with
  | ⟨0, _⟩ => show win0_2.index t (0 : Fin 3) * 1 + 1 * (x 0).val = (k 0).val; rw [f0, hk0]; omega
  | ⟨1, _⟩ => show win0_2.index t (1 : Fin 3) * 128 + 1 * (x 1).val = (k 1).val; rw [f1, hk1]; omega
  | ⟨2, _⟩ => show win0_2.index t (2 : Fin 3) * 4096 + 1 * (x 2).val = (k 2).val; rw [f2, hk2]; omega

/-- Stream 3's block at point `t`: its entry `(0, r, k)` is the banded adjacency's entry `(3, 128 t + r, k)`. -/
theorem band_block3 (c : Dev nD) (t : Fin cfg0.N) (x : S1x128x4096.Idx) (k : S4x1024x4096.Idx)
    (hk0 : (k 0).val = 3) (hk1 : (k 1).val = 128 * t.val + (x 1).val) (hk2 : (k 2).val = (x 2).val) :
    (iblk m c 3 t : Vec Ideal S1x128x4096 .f32) x = (V m c main_call0_v0 : S4x1024x4096.Idx → EReal) k := by
  obtain ⟨f0, f1, f2⟩ := (block_indices t).2.2.2.1
  have hx0 : (x 0).val < 1 := (x 0).isLt
  unfold iblk
  rw [View.read_apply]
  show V m c main_call0_v0 _ = V m c main_call0_v0 _
  congr 1
  funext a
  apply Fin.ext
  match a with
  | ⟨0, _⟩ => show win0_3.index t (0 : Fin 3) * 1 + 1 * (x 0).val = (k 0).val; rw [f0, hk0]; omega
  | ⟨1, _⟩ => show win0_3.index t (1 : Fin 3) * 128 + 1 * (x 1).val = (k 1).val; rw [f1, hk1]; omega
  | ⟨2, _⟩ => show win0_3.index t (2 : Fin 3) * 4096 + 1 * (x 2).val = (k 2).val; rw [f2, hk2]; omega

/-- The table's block at any point is the whole table. -/
theorem table_block (c : Dev nD) (t : Fin cfg0.N) :
    (iblk m c 4 t : Vec Ideal S4096x256 .f32) = (V m c main_arg1 : S4096x256.Idx → EReal) := by
  obtain ⟨f0, f1⟩ := (block_indices t).2.2.2.2.1
  funext x
  unfold iblk
  rw [View.read_apply]
  show V m c main_arg1 _ = V m c main_arg1 _
  congr 1
  funext a
  apply Fin.ext
  match a with
  | ⟨0, _⟩ => show win0_4.index t (0 : Fin 2) * 4096 + 1 * (x 0).val = (x 0).val; rw [f0]; omega
  | ⟨1, _⟩ => show win0_4.index t (1 : Fin 2) * 256 + 1 * (x 1).val = (x 1).val; rw [f1]; omega

/-! ## What a point writes back -/

/-- The block the body leaves at point `t`, entry by entry: if the four band blocks are rows `128 t …` of the
    four bands of `R` and the table's block is `E`, the block's entry at `y` is the banded product's at the
    index `i` with the same slab and column and row `128 t +` the row of `y`. -/
theorem block_entry (x0 x1 x2 x3 : Vec Ideal S1x128x4096 .f32) (e : Vec Ideal S4096x256 .f32)
    (R : S4x1024x4096.Idx → EReal) (E : S4096x256.Idx → EReal) (t : Nat) (ht : t < 8)
    (h0 : ∀ (r : Fin 128) (k : Fin 4096), x0 (ix3 (0 : Fin 1) r k) = R (ix3 (0 : Fin 4) ⟨128 * t + r.val, by omega⟩ k))
    (h1 : ∀ (r : Fin 128) (k : Fin 4096), x1 (ix3 (0 : Fin 1) r k) = R (ix3 (1 : Fin 4) ⟨128 * t + r.val, by omega⟩ k))
    (h2 : ∀ (r : Fin 128) (k : Fin 4096), x2 (ix3 (0 : Fin 1) r k) = R (ix3 (2 : Fin 4) ⟨128 * t + r.val, by omega⟩ k))
    (h3 : ∀ (r : Fin 128) (k : Fin 4096), x3 (ix3 (0 : Fin 1) r k) = R (ix3 (3 : Fin 4) ⟨128 * t + r.val, by omega⟩ k))
    (he : e = E) (y : S4x128x256.Idx) (i : S4x1024x256.Idx)
    (hi0 : (i 0).val = (y 0).val) (hi1 : (i 1).val = 128 * t + (y 1).val) (hi2 : (i 2).val = (y 2).val) :
    outBlk (F := Ideal) x0 x1 x2 x3 e y = bandProd R E i := by
  obtain ⟨s, r, d, rfl⟩ : ∃ (s : Fin 4) (r : Fin 128) (d : Fin 256), y = ix3 s r d := ⟨y 0, y 1, y 2, eq_ix3 y⟩
  obtain ⟨s', r', d', rfl⟩ : ∃ (s' : Fin 4) (r' : Fin 1024) (d' : Fin 256), i = ix3 s' r' d' := ⟨i 0, i 1, i 2, eq_ix3 i⟩
  have hr : 128 * t + r.val < 1024 := by omega
  have e0 : s' = s := Fin.ext hi0
  have e1 : r' = ⟨128 * t + r.val, hr⟩ := Fin.ext hi1
  have e2 : d' = d := Fin.ext hi2
  clear hi0 hi1 hi2
  subst e0 e1 e2 he
  rw [outBlk_apply]
  show _ = bandDot R e s' ⟨128 * t + r.val, _⟩ d'
  unfold bandDot
  refine Finset.sum_congr rfl fun k _ => ?_
  congr 1
  match s' with
  | ⟨0, _⟩ => exact h0 r k
  | ⟨1, _⟩ => exact h1 r k
  | ⟨2, _⟩ => exact h2 r k
  | ⟨3, _⟩ => exact h3 r k

/-- What point `t` writes back is block `t` of the banded product of the arrays as the region finds them. -/
theorem flushed_eq (c : Dev nD) (t : Fin cfg0.N) :
    (dats m 0 c).flushed 5 t
      = ((cfg0.win 5).blk t).view.read (Elt Ideal) (bandProd (V m c main_call0_v0) (V m c main_arg1)) := by
  show (cfg0.win 5).cut (grid0.coords t) ((dats m 0 c).after 5 t) = _
  rw [after_5]
  obtain ⟨f0, f1, f2⟩ := (block_indices t).2.2.2.2.2
  have ht : t.val < 8 := lt_of_lt_of_eq t.isLt N_0
  funext j
  rw [View.read_apply]
  have hj0 : (j 0).val < 4 := (j 0).isLt
  have hj1 : (j 1).val < 128 := (j 1).isLt
  have hj2 : (j 2).val < 256 := (j 2).isLt
  refine block_entry (iblk m c 0 t) (iblk m c 1 t) (iblk m c 2 t) (iblk m c 3 t) (iblk m c 4 t)
    (V m c main_call0_v0) (V m c main_arg1) t.val ht
    (fun r k => band_block0 m c t _ _ rfl rfl rfl) (fun r k => band_block1 m c t _ _ rfl rfl rfl)
    (fun r k => band_block2 m c t _ _ rfl rfl rfl) (fun r k => band_block3 m c t _ _ rfl rfl rfl)
    (table_block m c t) ((cfg0.win 5).xinj (grid0.coords t) j) (((cfg0.win 5).blk t).view.emb j) ?_ ?_ ?_
  · show win0_5.index t (0 : Fin 3) * 4 + 1 * (j 0).val = (j 0).val
    rw [f0]; omega
  · show win0_5.index t (1 : Fin 3) * 128 + 1 * (j 1).val = 128 * t.val + (j 1).val
    rw [f1]; omega
  · show win0_5.index t (2 : Fin 3) * 256 + 1 * (j 2).val = (j 2).val
    rw [f2]; omega

/-! ## The blocks tile the result -/

/-- An index of the result array lies in point `t`'s block iff each coordinate lies in the block's range. -/
theorem mem_block (t : Fin cfg0.N) (i : S4x1024x256.Idx) :
    i ∈ ((cfg0.win 5).blk t).view.set
      ↔ ∀ a : Fin 3, win0_5.index t a * S4x128x256.size a ≤ (i a).val ∧ (i a).val < win0_5.index t a * S4x128x256.size a + S4x128x256.size a := by
  show i ∈ ((View.whole main_call0_v1).slice (win0_5.rect t)).set ↔ _
  rw [View.set_slice_whole, Rect.mem_set_unit]
  exact Iff.rfl

/-- Every index of the result array lies in the block of the point that holds its row: row `r` in point `r / 128`'s. -/
theorem covered (i : S4x1024x256.Idx) :
    ∃ t : Fin cfg0.N, (cfg0.win 5).flush t = true ∧ i ∈ ((cfg0.win 5).blk t).view.set := by
  have hi0 : (i 0).val < 4 := (i 0).isLt
  have hi1 : (i 1).val < 1024 := (i 1).isLt
  have hi2 : (i 2).val < 256 := (i 2).isLt
  have hN : cfg0.N = 8 := N_0
  obtain ⟨t, ht⟩ : ∃ t : Fin cfg0.N, t.val = (i 1).val / 128 := ⟨⟨(i 1).val / 128, by rw [hN]; omega⟩, rfl⟩
  obtain ⟨f0, f1, f2⟩ := (block_indices t).2.2.2.2.2
  refine ⟨t, flush0_5 t, ?_⟩
  rw [mem_block]
  intro a
  match a with
  | ⟨0, _⟩ => show win0_5.index t (0 : Fin 3) * 4 ≤ (i 0).val ∧ (i 0).val < win0_5.index t (0 : Fin 3) * 4 + 4; rw [f0]; omega
  | ⟨1, _⟩ => show win0_5.index t (1 : Fin 3) * 128 ≤ (i 1).val ∧ (i 1).val < win0_5.index t (1 : Fin 3) * 128 + 128; rw [f1, ht]; omega
  | ⟨2, _⟩ => show win0_5.index t (2 : Fin 3) * 256 ≤ (i 2).val ∧ (i 2).val < win0_5.index t (2 : Fin 3) * 256 + 256; rw [f2]; omega

/-! ## The result array -/

/-- The result array after the region's eight points is the banded product of the arrays the region found. -/
theorem result_banded (c : Dev nD) :
    (dats m 0 c).arrAt 5 cfg0.N = bandProd (V m c main_call0_v0) (V m c main_arg1) :=
  (dats m 0 c).arrAt_eq_of_cover 5 (bandProd (V m c main_call0_v0) (V m c main_arg1)) (fun t _ => flushed_eq m c t) covered

/-- Entry `(s, r, k)` of the reshaped adjacency is entry `(1024 s + r, k)` of the adjacency. -/
theorem reshaped_adj (A : S4096x4096.Idx → EReal) (s : Fin 4) (r : Fin 1024) (k : Fin 4096) :
    shapeCast S4x1024x4096 A shapeCasts_S4096x4096_S4x1024x4096 (ix3 s r k) = A (ix2 ⟨s.val * 1024 + r.val, by omega⟩ k) := by
  refine shapeCast_apply _ _ _ _ ?_
  rw [Shape.rowMajor_val_two, Shape.rowMajor_val_three]
  show (s.val * 1024 + r.val) * 4096 + k.val = (s.val * 1024 + r.val) * 4096 + k.val
  rfl

/-- Entry `(s, r, d)` of the result array after the region: row `1024 s + r` of the adjacency as launched against
    column `d` of the table as launched. -/
theorem result_array (c : Dev nD) (s : Fin 4) (r : Fin 1024) (d : Fin 256) :
    (dats (F := Ideal) m 0 c).arrAt 5 cfg0.N (ix3 s r d)
      = ∑ k : Fin 4096, adj m c (ix2 ⟨s.val * 1024 + r.val, by omega⟩ k) * tab m c (ix2 k d) := by
  rw [result_banded]
  show bandDot (V m c main_call0_v0) (V m c main_arg1) s r d = _
  unfold bandDot
  rw [entered_adj, entered_tab]
  refine Finset.sum_congr rfl fun k _ => ?_
  rw [reshaped_adj]

end Cert.KernelIdeal.Hand

end
-- ==== Proof.FinalI.lean ====
/-
  @main's result is the matrix product, entry by entry.

  The last reshape reads the 4×1024×256 result array in row-major order, so entry `(p, d)` of @main's
  result is the result array's entry `(p / 1024, p mod 1024, d)`: row `p mod 1024` of band `p / 1024` of
  the reshaped adjacency — which is row `p` of the adjacency — against column `d` of the table. That is the
  sum over `k` of `adj (p, k) · embeds (k, d)`, which is what the host's product of the two arguments holds
  at `(p, d)` on the extended reals: the two programs compute one function, with no law needed to join them.
-/
import proofs.«166637_g29180007809569_cont_9to1_395_11_alg».proof.Proof.RunI
import proofs.«166637_g29180007809569_cont_9to1_395_11_alg».proof.Proof.ArrayI
import proofs.«166637_g29180007809569_cont_9to1_395_11_alg».proof.Proof.Gen.ReferenceIdeal.Read
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

/-- The last reshape, read off the run: @main's result is the row-major reshape of the result array. -/
theorem finalOut_eq {F : FTy → Type} [FloatOps F] (m : (ℓ : Loc nD τ sig) → Buf (Elt F) ℓ) (c : Dev nD) :
    (finalOut m c : S4096x256.Idx → Elt F .f32)
      = shapeCast S4096x256 ((dats m 0 c).arrAt 5 cfg0.N : S4x1024x256.Idx → Elt F .f32) shapeCasts_S4x1024x256_S4096x256 := by
  unfold finalOut
  dsimp only [hostOps1]
  after_results
  rw [V₁_res]; rfl

variable (m : (ℓ : Loc nD τ sig) → Buf (Elt Ideal) ℓ)

/-- The result array after the region and @main's result buffer at the end, as arrays of extended reals. -/
abbrev res (c : Dev nD) : S4x1024x256.Idx → EReal := (dats (F := Ideal) m 0 c).arrAt 5 cfg0.N
abbrev outArr (c : Dev nD) : S4096x256.Idx → EReal := finalOut (F := Ideal) m c

/-- Entry `(p, d)` of @main's result: row `p` of the adjacency against column `d` of the table. -/
theorem finalOut_apply (c : Dev nD) (p : Fin 4096) (d : Fin 256) :
    outArr m c (ix2 p d) = ∑ k : Fin 4096, adj m c (ix2 p k) * tab m c (ix2 k d) := by
  have hp := p.isLt
  show (finalOut (F := Ideal) m c : S4096x256.Idx → EReal) (ix2 p d) = _
  rw [finalOut_eq]
  refine ((shapeCast_apply (res m c) shapeCasts_S4x1024x256_S4096x256 (ix2 p d)
    (ix3 (⟨p.val / 1024, by omega⟩ : Fin 4) (⟨p.val % 1024, by omega⟩ : Fin 1024) d) (by
      rw [Shape.rowMajor_val_three, Shape.rowMajor_val_two]
      show (p.val / 1024 * 1024 + p.val % 1024) * 256 + d.val = p.val * 256 + d.val
      omega)).trans (result_array m c _ _ _)).trans ?_
  refine Finset.sum_congr rfl fun k _ => ?_
  exact congrArg (fun q : Fin 4096 => adj m c (ix2 q k) * tab m c (ix2 k d))
    (Fin.ext (by show p.val / 1024 * 1024 + p.val % 1024 = p.val; omega))

/-- @main's result is the host's product of the two arguments. -/
theorem result_eq (c : Dev nD) :
    outArr m c = (Host.dotGeneral (F := Ideal) (φ₁ := .f32) (φ₂ := .f32) Cert.ReferenceIdeal.dot_S4096x4096_S4096x256_S4096x256_1_0_0_1_n_n none
      (adj m c : FVec Ideal Cert.ReferenceIdeal.S4096x4096 .f32) (tab m c : FVec Ideal Cert.ReferenceIdeal.S4096x256 .f32) : S4096x256.Idx → EReal) := by
  funext j
  obtain ⟨p, d, rfl⟩ : ∃ (p : Fin 4096) (d : Fin 256), j = ix2 p d := ⟨j 0, j 1, eq_ix2 j⟩
  rw [finalOut_apply, Cert.ReferenceIdeal.Read.val_main_v0_eq, Cert.ReferenceIdeal.Read.val_main_v0_apply]
  refine Finset.sum_congr rfl fun k _ => ?_
  congr 2 <;> (funext a; match a with | ⟨0, _⟩ => rfl | ⟨1, _⟩ => rfl)

end Cert.KernelIdeal.Hand

end
-- ==== Proof.lean ====
/-
  The kernel computes `adj @ embeds`: the certificate.

  The kernel views the 4096×4096 adjacency as four bands of 1024 rows and hands the one reshaped array to a
  single pipelined region through four windows, so that at each of its eight grid points the region holds
  128 rows of every band together with the whole 4096×256 embedding table, multiplies each band block by
  the table, and writes the four products back as one 4×128×256 block of a 4×1024×256 result, which @main
  reshapes to 4096×256. The reference is the host's one matrix product of the two arguments.

  The frames. Each kernel program is run as three segments — the first reshape, the region, the last
  reshape — with the reshaped adjacency's full share dealt in quarters to the four windows that read it.
  The body's triple is run once on whole staging buffers; its four stores tile the output block. The
  reference's frame is its generated run with the result dropped.

  The value. On the extended reals a matrix product into a zero accumulator is the plain sum of products,
  and a reshape moves no entry in row-major order; so entry `(p, d)` of the kernel's result is row
  `p mod 1024` of band `p / 1024` against column `d` of the table, that is the sum over `k` of
  `adj (p, k) · embeds (k, d)`, the host product's entry. Both sides are the same sum of the same terms
  in the same order: no algebraic law joins them, and the inputs' finiteness is not used. The ideal pass
  rewrote nothing, so there is nothing to preserve.
-/
import proofs.«166637_g29180007809569_cont_9to1_395_11_alg».proof.Defs
import proofs.«166637_g29180007809569_cont_9to1_395_11_alg».proof.Proof.Gen.Kernel
import proofs.«166637_g29180007809569_cont_9to1_395_11_alg».proof.Proof.Gen.KernelIdeal
import proofs.«166637_g29180007809569_cont_9to1_395_11_alg».proof.Proof.Gen.ReferenceIdeal
import proofs.«166637_g29180007809569_cont_9to1_395_11_alg».proof.Proof.Gen.ReferenceIdeal.Run
import proofs.«166637_g29180007809569_cont_9to1_395_11_alg».proof.Proof.Gen.Pre_finite_inputs
import proofs.«166637_g29180007809569_cont_9to1_395_11_alg».proof.Proof.RunB
import proofs.«166637_g29180007809569_cont_9to1_395_11_alg».proof.Proof.RunI
import proofs.«166637_g29180007809569_cont_9to1_395_11_alg».proof.Proof.FinalI
import Idealize.ShloMosaic.Adequacy
import Idealize.ShloMosaic.Init

noncomputable section

namespace Cert.Proof

open Idealize.ShloMosaic Idealize.SL.Sem

/-- The kernel as printed runs to its end and leaves both arguments as launched. -/
theorem frame_kernel : Cert.frame_Kernel := fun m ρ _ => Cert.Kernel.Hand.frame m ρ

/-- So does the kernel read on the extended reals. -/
theorem frame_ideal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the product `adj @ embeds` in their result:
    the kernel's run ends with it by `result_eq`, the reference's by its generated run. -/
theorem algebraic : Cert.algebraic_KernelIdeal_ReferenceIdeal := by
  intro m ρ m' ρ' _ hagree
  refine ⟨fun c => Cert.KernelIdeal.Hand.finalOut (F := Ideal) m c, Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
